-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S5x64 : Shape := ⟨2, ![5, 64]⟩
abbrev S5 : Shape := ⟨1, ![5]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S5x64 : S_.BroadcastsInDim S5x64 (![] : Fin 0 → Fin S5x64.rank)
  reducesTo_S5x64_S_d0_1 : S5x64.ReducesTo [0, 1] S_
  bcast_S_S5 : S_.BroadcastsInDim S5 (![] : Fin 0 → Fin S5.rank)
  reducesTo_S5_S_d0 : S5.ReducesTo [0] S_

variable [Facts]

def fn_part3 {F : FTy → Type} [FloatOps F] (main_v48 : IVec S_ 1) (main_v49 : FVec F S5 .f32) (main_v50 : FVec F S5 .f32) : IVec S_ 1 :=
  let main_v51 : IVec S5 1 := cmpf .olt main_v49 main_v50
  let main_c_19 : IVec S_ 1 := constantI S_ 1 1#1
  let main_v52 : IVec S_ 1 := (fun x v => Host.reduce IntOp.andi x v reducesTo_S5_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S5x64 .f32) (main_arg10 : FVec F S5 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S5x64 .f32 := Host.absf main_arg9
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  let main_v49 : FVec F S5 .f32 := Host.absf main_arg10
  let main_cst_18 : FVec F S_ .f32 := constant S_ .f32 0x7F800000#32
  let main_v50 : FVec F S5 .f32 := broadcastInDim S5 ![] bcast_S_S5 main_cst_18
  fn_part3 (F := F) main_v48 main_v49 main_v50

def fn_part1 {F : FTy → Type} [FloatOps F] (main_arg4 : FVec F S64x64 .f32) (main_arg5 : FVec F S64 .f32) (main_arg6 : FVec F S64x64 .f32) (main_arg7 : FVec F S64x64 .f32) (main_arg8 : FVec F S64 .f32) (main_arg9 : FVec F S5x64 .f32) (main_arg10 : FVec F S5 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x64 .f32) (main_arg1 : FVec F S64x64 .f32) (main_arg2 : FVec F S64 .f32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S5x64 .f32) (main_arg10 : FVec F S5 .f32) (main_arg11 : IVec S2x1600000 32) (main_arg12 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S100000x64 : Shape := ⟨2, ![100000, 64]⟩
abbrev S64x64 : Shape := ⟨2, ![64, 64]⟩
abbrev S64 : Shape := ⟨1, ![64]⟩
abbrev S5x64 : Shape := ⟨2, ![5, 64]⟩
abbrev S5 : Shape := ⟨1, ![5]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩
abbrev S512x64 : Shape := ⟨2, ![512, 64]⟩
abbrev S512 : Shape := ⟨1, ![512]⟩
abbrev S512x1 : Shape := ⟨2, ![512, 1]⟩
abbrev S64x5 : Shape := ⟨2, ![64, 5]⟩
abbrev S1x5 : Shape := ⟨2, ![1, 5]⟩
abbrev S512x5 : Shape := ⟨2, ![512, 5]⟩

abbrev nBuf : Space → Nat
  | .hbm => 90
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S5x64, .f32⟩
  | .hbm, ⟨10, _⟩ => ⟨S5, .f32⟩
  | .hbm, ⟨11, _⟩ => ⟨S2x1600000, .i32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S64x64, .f32⟩
  | .hbm, ⟨66, _⟩ => ⟨S64x64, .f32⟩
  | .hbm, ⟨67, _⟩ => ⟨S1x64, .f32⟩
  | .hbm, ⟨68, _⟩ => ⟨S100000x64, .f32⟩
  | .hbm, ⟨69, _⟩ => ⟨S_, .f32⟩
  | .hbm, ⟨70, _⟩ => ⟨S100000, .f32⟩
  | .hbm, ⟨71, _⟩ => ⟨S_, .f32⟩
  | .hbm, ⟨72, _⟩ => ⟨S512x64, .f32⟩
  | .hbm, ⟨73, _⟩ => ⟨S100000x1, .i32⟩
  | .hbm, ⟨74, _⟩ => ⟨S512x64, .f32⟩
  | .hbm, ⟨75, _⟩ => ⟨S_, .f32⟩
  | .hbm, ⟨76, _⟩ => ⟨S512, .f32⟩
  | .hbm, ⟨77, _⟩ => ⟨S100000x1, .i32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512x1, .f32⟩
  | .hbm, ⟨83, _⟩ => ⟨S512x64, .f32⟩
  | .hbm, ⟨84, _⟩ => ⟨S512x64, .f32⟩
  | .hbm, ⟨85, _⟩ => ⟨S64x64, .f32⟩
  | .hbm, ⟨86, _⟩ => ⟨S64x5, .f32⟩
  | .hbm, ⟨87, _⟩ => ⟨S1x64, .f32⟩
  | .hbm, ⟨88, _⟩ => ⟨S1x5, .f32⟩
  | .hbm, ⟨89, _⟩ => ⟨S512x5, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S512x64, .f32⟩
  | .local _ .vmem, ⟨19, _⟩ => ⟨S64x64, .f32⟩
  | .local _ .vmem, ⟨20, _⟩ => ⟨S1x64, .f32⟩
  | .local _ .vmem, ⟨21, _⟩ => ⟨S64x5, .f32⟩
  | .local _ .vmem, ⟨22, _⟩ => ⟨S1x5, .f32⟩
  | .local _ .vmem, ⟨23, _⟩ => ⟨S512x5, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x5 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x5 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S5x64_S64x5_1_0 : S5x64.Transposes [1, 0] S64x5
  shapeCasts_S5_S1x5 : S5.ShapeCasts S1x5
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x5_S64x5_0_0 : ∀ a, (![0, 0] : Fin 2 → Nat) a + S64x5.size a ≤ S64x5.size a
  h_S64x5 : 0 < S64x5.numel
  shapeCasts_S64x5_S64x5 : S64x5.ShapeCasts S64x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S512x5 : S1x5.Broadcasts S512x5
  inb_S512x5_S512x5_0_0 : ∀ a, (![0, 0] : Fin 2 → Nat) a + S512x5.size a ≤ S512x5.size a
  h_S512x5 : 0 < S512x5.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x5_S512x5_1_0_0_1_n_n_wf : DotDims.WF S512x64 S64x5 S512x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x5.size a ≤ S64x5.size a
  hwx2_3 : ∀ i : grid2.Coords, EltTy.bits .f32 = 32 ∨ (Rect.block (s := S64x5) S64x5.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x5.size a ≤ S1x5.size a
  hwx2_4 : ∀ i : grid2.Coords, EltTy.bits .f32 = 32 ∨ (Rect.block (s := S1x5) S1x5.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x5.size a ≤ S512x5.size a
  hwx2_5 : ∀ i : grid2.Coords, EltTy.bits .f32 = 32 ∨ (Rect.block (s := S512x5) S512x5.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x5_S512x5_1_0_0_1_n_n : DotDims S512x64 S64x5 S512x5 where
  lhsContracting := [1]
  rhsContracting := [0]
  lhsNonContracting := [0]
  rhsNonContracting := [1]
  lhsBatch := []
  rhsBatch := []
  wf := dot_S512x64_S64x5_S512x5_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v58) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S64x5.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x5.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S512x5.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S5x64 : Shape := ⟨2, ![5, 64]⟩
abbrev S5 : Shape := ⟨1, ![5]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S64x5 : Shape := ⟨2, ![64, 5]⟩
abbrev S512x5 : Shape := ⟨2, ![512, 5]⟩
abbrev S1x5 : Shape := ⟨2, ![1, 5]⟩

abbrev nBuf : Space → Nat
  | .hbm => 118
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S5x64, .f32⟩
  | .hbm, ⟨10, _⟩ => ⟨S5, .f32⟩
  | .hbm, ⟨11, _⟩ => ⟨S2x1600000, .i32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S64x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S512x64, .f32⟩
  | .hbm, ⟨91, _⟩ => ⟨S100000x1, .i32⟩
  | .hbm, ⟨92, _⟩ => ⟨S512x64, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S512, .f32⟩
  | .hbm, ⟨97, _⟩ => ⟨S100000x1, .i32⟩
  | .hbm, ⟨98, _⟩ => ⟨S512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512x1, .f32⟩
  | .hbm, ⟨103, _⟩ => ⟨S512x64, .f32⟩
  | .hbm, ⟨104, _⟩ => ⟨S512x64, .f32⟩
  | .hbm, ⟨105, _⟩ => ⟨S64x64, .f32⟩
  | .hbm, ⟨106, _⟩ => ⟨S512x64, .f32⟩
  | .hbm, ⟨107, _⟩ => ⟨S1x64, .f32⟩
  | .hbm, ⟨108, _⟩ => ⟨S512x64, .f32⟩
  | .hbm, ⟨109, _⟩ => ⟨S512x64, .f32⟩
  | .hbm, ⟨110, _⟩ => ⟨S_, .f32⟩
  | .hbm, ⟨111, _⟩ => ⟨S512x64, .f32⟩
  | .hbm, ⟨112, _⟩ => ⟨S512x64, .f32⟩
  | .hbm, ⟨113, _⟩ => ⟨S64x5, .f32⟩
  | .hbm, ⟨114, _⟩ => ⟨S512x5, .f32⟩
  | .hbm, ⟨115, _⟩ => ⟨S1x5, .f32⟩
  | .hbm, ⟨116, _⟩ => ⟨S512x5, .f32⟩
  | .hbm, ⟨117, _⟩ => ⟨S512x5, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call2_cst : Ref sig .tc := ⟨.hbm, 110, rfl⟩
abbrev main_call2_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  transposes_S5x64_S64x5_1_0 : S5x64.Transposes [1, 0] S64x5
  bcast_S5_S1x5_1 : S5.BroadcastsInDim S1x5 (![1] : Fin 1 → Fin S1x5.rank)
  bcast_S1x5_S512x5_0_1 : S1x5.BroadcastsInDim S512x5 (![0, 1] : Fin 2 → Fin S512x5.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x64_S512x64_1_0_0_1_n_n_wf : DotDims.WF S512x64 S64x64 S512x64 [1] [0] [0] [1] [] []
  dot_S512x64_S64x5_S512x5_1_0_0_1_n_n_wf : DotDims.WF S512x64 S64x5 S512x5 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x5_S512x5_1_0_0_1_n_n : DotDims S512x64 S64x5 S512x5 where
  lhsContracting := [1]
  rhsContracting := [0]
  lhsNonContracting := [0]
  rhsNonContracting := [1]
  lhsBatch := []
  rhsBatch := []
  wf := dot_S512x64_S64x5_S512x5_1_0_0_1_n_n_wf

class Facts : Prop extends Facts₀ where

variable [Facts]
-- ==== Proof.HostGlue.lean ====
/-
  The host-side pieces of the network, as functions of their operands.

  Around the three kernel regions the program gathers and sums on the host. With `src` and `dst` the two rows of the
  edge list:
  * the neighbour sum of node features `h` adds, into each node `n`, the rows `h[src e]` of the edges `e` with
    `dst e = n` (a gather by `src`, negative indices wrapped, then a scatter-add by `dst`);
  * a node's degree is the same scatter-add of ones, floored at one before it is used;
  * the mean over neighbours is the neighbour sum times the reciprocal of the floored degree (this program) — the
    same mean written as a quotient by the floored degree is stated here too, for comparison with a program that
    divides;
  * the graph mean of node features sums the nodes of each graph (a scatter-add by the batch vector) and divides by
    the graph's node count floored at one.
  None of the gathers or scatter-adds is ever opened: two programs that apply them to equal operands get equal
  results, whatever they compute.
-/
import proofs.«102318_j76613626626158_1_alg».proof.Proof.Gen.KernelIdeal

noncomputable section

namespace Cert.KernelIdeal.Glue

open Cert.KernelIdeal Cert.KernelIdeal.Gen Idealize.ShloMosaic

variable {F : FTy → Type} [FloatOps F]

/-- The edge list's row of source nodes. -/
def srcRow (ei : IVec S2x1600000 32) : IVec S1600000 32 :=
  shapeCast S1600000 (extractStridedSlice S1x1600000 ![0, 0] ei slices_S2x1600000_S1x1600000_0_0) shapeCasts_S1x1600000_S1600000

/-- The edge list's row of destination nodes. -/
def dstRow (ei : IVec S2x1600000 32) : IVec S1600000 32 :=
  shapeCast S1600000 (extractStridedSlice S1x1600000 ![1, 0] ei slices_S2x1600000_S1x1600000_1_0) shapeCasts_S1x1600000_S1600000

/-- Source indices as the gather takes them: a negative index wrapped by the number of nodes, one index per row. -/
def gatherIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Each node's sum of its in-neighbours' feature rows. -/
def neighbourSum (h : FVec F S100000x64 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h (gatherIdx src))

/-- Each node's in-degree, floored at one. -/
def flooredDegree (dst : IVec S1600000 32) : FVec F S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- The reciprocal of the floored in-degree. -/
def recipDegree (dst : IVec S1600000 32) : FVec F S100000 .f32 :=
  Host.divf (broadcastInDim S100000 ![] bcast_S_S100000 (constant S_ .f32 0x3F800000#32)) (flooredDegree dst)

/-- A per-node number repeated along the node's 64 features. -/
def alongFeatures (v : FVec F S100000 .f32) : FVec F S100000x64 .f32 :=
  broadcastInDim S100000x64 ![0, 1] bcast_S100000x1_S100000x64_0_1 (broadcastInDim S100000x1 ![0] bcast_S100000_S100000x1_0 v)

/-- The neighbour sum scaled by a per-node factor. -/
def scaledSum (h : FVec F S100000x64 .f32) (src dst : IVec S1600000 32) (r : FVec F S100000 .f32) : FVec F S100000x64 .f32 :=
  mulf (neighbourSum h src dst) (alongFeatures r)

/-- The mean over in-neighbours, as the sum times the reciprocal of the floored degree. -/
def meanByProduct (h : FVec F S100000x64 .f32) (src dst : IVec S1600000 32) : FVec F S100000x64 .f32 :=
  scaledSum h src dst (recipDegree dst)

/-- The mean over in-neighbours, as the sum divided by the floored degree. -/
def meanByQuotient (h : FVec F S100000x64 .f32) (src dst : IVec S1600000 32) : FVec F S100000x64 .f32 :=
  Host.divf (neighbourSum h src dst) (alongFeatures (flooredDegree dst))

/-- The mean of the node features over each graph's nodes (a graph without nodes counts as one node). -/
def graphMean (h : FVec F S100000x64 .f32) (batch : IVec S100000 32) : FVec F S512x64 .f32 :=
  Host.divf
    (Host.scatterAdd scatter_S512x64_S100000x1_S100000x64_1_0_0_1
      (broadcastInDim S512x64 ![] bcast_S_S512x64 (constant S_ .f32 0x00000000#32))
      (broadcastInDim S100000x1 ![0] bcast_S100000_S100000x1_0 batch) h)
    (broadcastInDim S512x64 ![0, 1] bcast_S512x1_S512x64_0_1 (broadcastInDim S512x1 ![0] bcast_S512_S512x1_0
      (maximumf
        (Host.scatterAdd scatter_S512_S100000x1_S100000_n_0_0_1
          (broadcastInDim S512 ![] bcast_S_S512 (constant S_ .f32 0x00000000#32))
          (broadcastInDim S100000x1 ![0] bcast_S100000_S100000x1_0 batch)
          (broadcastInDim S100000 ![] bcast_S_S100000 (constant S_ .f32 0x3F800000#32)))
        (broadcastInDim S512 ![] bcast_S_S512 (constant S_ .f32 0x3F800000#32)))))

/-- A `64 × 64` weight matrix transposed. -/
def transposed (w : FVec F S64x64 .f32) : FVec F S64x64 .f32 := transpose S64x64 [1, 0] w transposes_S64x64_S64x64_1_0

/-- The `5 × 64` output weights transposed. -/
def transposedOut (w : FVec F S5x64 .f32) : FVec F S64x5 .f32 := transpose S64x5 [1, 0] w transposes_S5x64_S64x5_1_0

/-- A bias of 64 entries as one row. -/
def asRow (b : FVec F S64 .f32) : FVec F S1x64 .f32 := shapeCast S1x64 b shapeCasts_S64_S1x64

/-- The output bias of 5 entries as one row. -/
def asRowOut (b : FVec F S5 .f32) : FVec F S1x5 .f32 := shapeCast S1x5 b shapeCasts_S5_S1x5

end Cert.KernelIdeal.Glue

end
-- ==== Proof.ChainA.lean ====
/-
  The host operations before the first dense layer, read back.

  From the launch contents the first stretch of host operations forms the mean over neighbours of the input features,
  transposes the first layer's two weight matrices and lays its bias out as a row; it also leaves the edge list's two
  rows and the reciprocal of the floored degree, which the second layer's stretch reads again. Each buffer the first
  region (or a later stretch) reads is stated here as its function of the argument arrays; an argument array no
  operation writes still holds its launch contents.
-/
import proofs.«102318_j76613626626158_1_alg».proof.Proof.Gen.KernelIdeal.Frame
import proofs.«102318_j76613626626158_1_alg».proof.Proof.HostGlue
import Idealize.ShloMosaic.Lib.StableHlo.Run

set_option maxRecDepth 16384

noncomputable section

namespace Cert.KernelIdeal.Chain

open Cert.KernelIdeal Cert.KernelIdeal.Gen Cert.KernelIdeal.Glue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What the first region reads -/

set_option maxHeartbeats 4000000 in
/-- The first layer's aggregate: the mean over neighbours of the input features. -/
theorem first_mean (c : Dev nD) : W1 m ρ c (Proc.devRef .tc main_v24) = meanByProduct (m ((c : Thread nD τ).loc main_arg0)) (srcRow (m ((c : Thread nD τ).loc main_arg11))) (dstRow (m ((c : Thread nD τ).loc main_arg11))) := by
  show StableHlo.after hostOps0 (W0 m ρ c) (Proc.devRef .tc main_v24) = _
  dsimp only [hostOps0]
  after_results_simp
  rfl
set_option maxHeartbeats 4000000 in
/-- The first layer's neighbour weights, transposed. -/
theorem first_weights_l (c : Dev nD) : W1 m ρ c (Proc.devRef .tc main_v25) = transposed (m ((c : Thread nD τ).loc main_arg1)) := by
  show StableHlo.after hostOps0 (W0 m ρ c) (Proc.devRef .tc main_v25) = _
  dsimp only [hostOps0]
  after_results_simp
  rfl
set_option maxHeartbeats 4000000 in
/-- The first layer's bias as a row. -/
theorem first_bias (c : Dev nD) : W1 m ρ c (Proc.devRef .tc main_v27) = asRow (m ((c : Thread nD τ).loc main_arg2)) := by
  show StableHlo.after hostOps0 (W0 m ρ c) (Proc.devRef .tc main_v27) = _
  dsimp only [hostOps0]
  after_results_simp
  rfl
set_option maxHeartbeats 4000000 in
/-- The first layer's self weights, transposed. -/
theorem first_weights_r (c : Dev nD) : W1 m ρ c (Proc.devRef .tc main_v26) = transposed (m ((c : Thread nD τ).loc main_arg3)) := by
  show StableHlo.after hostOps0 (W0 m ρ c) (Proc.devRef .tc main_v26) = _
  dsimp only [hostOps0]
  after_results_simp
  rfl

/-! ## What the second layer's stretch reads again -/

set_option maxHeartbeats 4000000 in
/-- The row of source nodes. -/
theorem kept_src (c : Dev nD) : W1 m ρ c (Proc.devRef .tc main_v1) = srcRow (m ((c : Thread nD τ).loc main_arg11)) := by
  show StableHlo.after hostOps0 (W0 m ρ c) (Proc.devRef .tc main_v1) = _
  dsimp only [hostOps0]
  after_results_simp
  rfl
set_option maxHeartbeats 4000000 in
/-- The row of destination nodes. -/
theorem kept_dst (c : Dev nD) : W1 m ρ c (Proc.devRef .tc main_v3) = dstRow (m ((c : Thread nD τ).loc main_arg11)) := by
  show StableHlo.after hostOps0 (W0 m ρ c) (Proc.devRef .tc main_v3) = _
  dsimp only [hostOps0]
  after_results_simp
  rfl
set_option maxHeartbeats 4000000 in
/-- The reciprocal of the floored degree. -/
theorem kept_recip (c : Dev nD) : W1 m ρ c (Proc.devRef .tc main_v11) = recipDegree (dstRow (m ((c : Thread nD τ).loc main_arg11))) := by
  show StableHlo.after hostOps0 (W0 m ρ c) (Proc.devRef .tc main_v11) = _
  dsimp only [hostOps0]
  after_results_simp
  rfl

/-! ## The argument arrays are not written -/

/-- Argument 0 after the first stretch. -/
theorem arg0_after0 (c : Dev nD) : W1 m ρ c (Proc.devRef .tc main_arg0) = m ((c : Thread nD τ).loc main_arg0) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg0) = W0 m ρ c (Proc.devRef .tc main_arg0))
/-- Argument 4 after the first stretch. -/
theorem arg4_after0 (c : Dev nD) : W1 m ρ c (Proc.devRef .tc main_arg4) = m ((c : Thread nD τ).loc main_arg4) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg4) = W0 m ρ c (Proc.devRef .tc main_arg4))
/-- Argument 5 after the first stretch. -/
theorem arg5_after0 (c : Dev nD) : W1 m ρ c (Proc.devRef .tc main_arg5) = m ((c : Thread nD τ).loc main_arg5) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg5) = W0 m ρ c (Proc.devRef .tc main_arg5))
/-- Argument 6 after the first stretch. -/
theorem arg6_after0 (c : Dev nD) : W1 m ρ c (Proc.devRef .tc main_arg6) = m ((c : Thread nD τ).loc main_arg6) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg6) = W0 m ρ c (Proc.devRef .tc main_arg6))
/-- Argument 7 after the first stretch. -/
theorem arg7_after0 (c : Dev nD) : W1 m ρ c (Proc.devRef .tc main_arg7) = m ((c : Thread nD τ).loc main_arg7) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg7) = W0 m ρ c (Proc.devRef .tc main_arg7))
/-- Argument 8 after the first stretch. -/
theorem arg8_after0 (c : Dev nD) : W1 m ρ c (Proc.devRef .tc main_arg8) = m ((c : Thread nD τ).loc main_arg8) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg8) = W0 m ρ c (Proc.devRef .tc main_arg8))
/-- Argument 9 after the first stretch. -/
theorem arg9_after0 (c : Dev nD) : W1 m ρ c (Proc.devRef .tc main_arg9) = m ((c : Thread nD τ).loc main_arg9) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg9) = W0 m ρ c (Proc.devRef .tc main_arg9))
/-- Argument 10 after the first stretch. -/
theorem arg10_after0 (c : Dev nD) : W1 m ρ c (Proc.devRef .tc main_arg10) = m ((c : Thread nD τ).loc main_arg10) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg10) = W0 m ρ c (Proc.devRef .tc main_arg10))
/-- Argument 12 after the first stretch. -/
theorem arg12_after0 (c : Dev nD) : W1 m ρ c (Proc.devRef .tc main_arg12) = m ((c : Thread nD τ).loc main_arg12) :=
  (StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps0 (W0 m ρ c) (Proc.devRef .tc main_arg12) = W0 m ρ c (Proc.devRef .tc main_arg12))

end Cert.KernelIdeal.Chain

end
-- ==== Proof.ChainB.lean ====
/-
  The host operations between the two dense layers, read back.

  The second stretch gathers and sums the first layer's output over the same edges, scales the sum by the reciprocal
  of the floored degree kept from the first stretch, transposes the second layer's two weight matrices and lays its
  bias out as a row. Each buffer the second region reads is stated as its function of what the stretch found; the
  first layer's output and the argument arrays it does not write are as it found them.
-/
import proofs.«102318_j76613626626158_1_alg».proof.Proof.Gen.KernelIdeal.Frame
import proofs.«102318_j76613626626158_1_alg».proof.Proof.HostGlue
import Idealize.ShloMosaic.Lib.StableHlo.Run

set_option maxRecDepth 16384

noncomputable section

namespace Cert.KernelIdeal.Chain

open Cert.KernelIdeal Cert.KernelIdeal.Gen Cert.KernelIdeal.Glue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The second layer's aggregate: the neighbour sum of the first layer's output, scaled by the kept reciprocal degree. -/
theorem second_mean (c : Dev nD) : W3 m ρ c (Proc.devRef .tc main_v41) = scaledSum (W2 m ρ c (Proc.devRef .tc main_v28)) (W2 m ρ c (Proc.devRef .tc main_v1)) (W2 m ρ c (Proc.devRef .tc main_v3)) (W2 m ρ c (Proc.devRef .tc main_v11)) := by
  show StableHlo.after hostOps1 (W2 m ρ c) (Proc.devRef .tc main_v41) = _
  dsimp only [hostOps1]
  after_results_simp
  rfl
set_option maxHeartbeats 4000000 in
/-- The second layer's neighbour weights, transposed. -/
theorem second_weights_l (c : Dev nD) : W3 m ρ c (Proc.devRef .tc main_v42) = transposed (W2 m ρ c (Proc.devRef .tc main_arg4)) := by
  show StableHlo.after hostOps1 (W2 m ρ c) (Proc.devRef .tc main_v42) = _
  dsimp only [hostOps1]
  after_results_simp
  rfl
set_option maxHeartbeats 4000000 in
/-- The second layer's bias as a row. -/
theorem second_bias (c : Dev nD) : W3 m ρ c (Proc.devRef .tc main_v44) = asRow (W2 m ρ c (Proc.devRef .tc main_arg5)) := by
  show StableHlo.after hostOps1 (W2 m ρ c) (Proc.devRef .tc main_v44) = _
  dsimp only [hostOps1]
  after_results_simp
  rfl
set_option maxHeartbeats 4000000 in
/-- The second layer's self weights, transposed. -/
theorem second_weights_r (c : Dev nD) : W3 m ρ c (Proc.devRef .tc main_v43) = transposed (W2 m ρ c (Proc.devRef .tc main_arg6)) := by
  show StableHlo.after hostOps1 (W2 m ρ c) (Proc.devRef .tc main_v43) = _
  dsimp only [hostOps1]
  after_results_simp
  rfl
/-- The first layer's output is not written by the stretch. -/
theorem first_output_after1 (c : Dev nD) : W3 m ρ c (Proc.devRef .tc main_v28) = W2 m ρ c (Proc.devRef .tc main_v28) :=
  (StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps1 (W2 m ρ c) (Proc.devRef .tc main_v28) = W2 m ρ c (Proc.devRef .tc main_v28))
/-- Argument 7 is not written by the stretch. -/
theorem arg7_after1 (c : Dev nD) : W3 m ρ c (Proc.devRef .tc main_arg7) = W2 m ρ c (Proc.devRef .tc main_arg7) :=
  (StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps1 (W2 m ρ c) (Proc.devRef .tc main_arg7) = W2 m ρ c (Proc.devRef .tc main_arg7))
/-- Argument 8 is not written by the stretch. -/
theorem arg8_after1 (c : Dev nD) : W3 m ρ c (Proc.devRef .tc main_arg8) = W2 m ρ c (Proc.devRef .tc main_arg8) :=
  (StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps1 (W2 m ρ c) (Proc.devRef .tc main_arg8) = W2 m ρ c (Proc.devRef .tc main_arg8))
/-- Argument 9 is not written by the stretch. -/
theorem arg9_after1 (c : Dev nD) : W3 m ρ c (Proc.devRef .tc main_arg9) = W2 m ρ c (Proc.devRef .tc main_arg9) :=
  (StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps1 (W2 m ρ c) (Proc.devRef .tc main_arg9) = W2 m ρ c (Proc.devRef .tc main_arg9))
/-- Argument 10 is not written by the stretch. -/
theorem arg10_after1 (c : Dev nD) : W3 m ρ c (Proc.devRef .tc main_arg10) = W2 m ρ c (Proc.devRef .tc main_arg10) :=
  (StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps1 (W2 m ρ c) (Proc.devRef .tc main_arg10) = W2 m ρ c (Proc.devRef .tc main_arg10))
/-- Argument 12 is not written by the stretch. -/
theorem arg12_after1 (c : Dev nD) : W3 m ρ c (Proc.devRef .tc main_arg12) = W2 m ρ c (Proc.devRef .tc main_arg12) :=
  (StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : StableHlo.after hostOps1 (W2 m ρ c) (Proc.devRef .tc main_arg12) = W2 m ρ c (Proc.devRef .tc main_arg12))

end Cert.KernelIdeal.Chain

end
-- ==== Proof.ChainC.lean ====
/-
  The host operations before the pooled head, read back.

  The third stretch takes the mean of the second layer's output over each graph's nodes, transposes the head's two
  weight matrices and lays its two biases out as rows. Each buffer the head's region reads is stated as its function of
  what the stretch found.
-/
import proofs.«102318_j76613626626158_1_alg».proof.Proof.Gen.KernelIdeal.Frame
import proofs.«102318_j76613626626158_1_alg».proof.Proof.HostGlue
import Idealize.ShloMosaic.Lib.StableHlo.Run

set_option maxRecDepth 16384

noncomputable section

namespace Cert.KernelIdeal.Chain

open Cert.KernelIdeal Cert.KernelIdeal.Gen Cert.KernelIdeal.Glue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- The graph means of the second layer's output. -/
theorem pooled (c : Dev nD) : W5 m ρ c (Proc.devRef .tc main_v57) = graphMean (W4 m ρ c (Proc.devRef .tc main_v45)) (W4 m ρ c (Proc.devRef .tc main_arg12)) := by
  show StableHlo.after hostOps2 (W4 m ρ c) (Proc.devRef .tc main_v57) = _
  dsimp only [hostOps2]
  after_results_simp
  rfl
set_option maxHeartbeats 4000000 in
/-- The head's hidden weights, transposed. -/
theorem head_weights_g (c : Dev nD) : W5 m ρ c (Proc.devRef .tc main_v58) = transposed (W4 m ρ c (Proc.devRef .tc main_arg7)) := by
  show StableHlo.after hostOps2 (W4 m ρ c) (Proc.devRef .tc main_v58) = _
  dsimp only [hostOps2]
  after_results_simp
  rfl
set_option maxHeartbeats 4000000 in
/-- The head's hidden bias as a row. -/
theorem head_bias_g (c : Dev nD) : W5 m ρ c (Proc.devRef .tc main_v60) = asRow (W4 m ρ c (Proc.devRef .tc main_arg8)) := by
  show StableHlo.after hostOps2 (W4 m ρ c) (Proc.devRef .tc main_v60) = _
  dsimp only [hostOps2]
  after_results_simp
  rfl
set_option maxHeartbeats 4000000 in
/-- The head's output weights, transposed. -/
theorem head_weights_o (c : Dev nD) : W5 m ρ c (Proc.devRef .tc main_v59) = transposedOut (W4 m ρ c (Proc.devRef .tc main_arg9)) := by
  show StableHlo.after hostOps2 (W4 m ρ c) (Proc.devRef .tc main_v59) = _
  dsimp only [hostOps2]
  after_results_simp
  rfl
set_option maxHeartbeats 4000000 in
/-- The head's output bias as a row. -/
theorem head_bias_o (c : Dev nD) : W5 m ρ c (Proc.devRef .tc main_v61) = asRowOut (W4 m ρ c (Proc.devRef .tc main_arg10)) := by
  show StableHlo.after hostOps2 (W4 m ρ c) (Proc.devRef .tc main_v61) = _
  dsimp only [hostOps2]
  after_results_simp
  rfl

end Cert.KernelIdeal.Chain

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.DenseLayer.lean ====
/-
  One dense layer of the network, read index by index at the ideal values.

  A layer takes a neighbour aggregate `a` and the node features `x` (both `rows × 64`), two `64 × 64` weight matrices
  given already transposed (`wl`, `wr`: input feature down the rows, output feature along the columns) and a bias row
  `b` (`1 × 64`). Its output at row `p`, feature `q` is

      max ( ∑ₖ a(p,k)·wl(k,q)  +  ∑ₖ x(p,k)·wr(k,q)  +  b(0,q) ,  0 ).

  The kernel body computes this for a block of 5000 rows: the two products on the matrix unit into zero accumulators
  (each a sum over the 64 contracted coordinates), their sum, the bias row broadcast down the rows, and the maximum with
  zero. The roundings to bf16 before the products are the identity on the extended reals.
-/
import proofs.«102318_j76613626626158_1_alg».proof.Proof.Gen.KernelIdeal
import proofs.«102318_j76613626626158_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.DenseValue

open Cert.KernelIdeal Idealize.ShloMosaic Idealize.ShloMosaic.ValueIdx

/-- A dense layer's output at row `p`, feature `q`, for any number of rows. -/
def denseAt {R : Nat} (a x : (⟨2, ![R, 64]⟩ : Shape).Idx → EReal) (wl : (⟨2, ![64, 64]⟩ : Shape).Idx → EReal)
    (b : (⟨2, ![1, 64]⟩ : Shape).Idx → EReal) (wr : (⟨2, ![64, 64]⟩ : Shape).Idx → EReal) (p : Fin R) (q : Fin 64) : EReal :=
  max ((∑ k : Fin 64, a (ix2 p k) * wl (ix2 k q)) + (∑ k : Fin 64, x (ix2 p k) * wr (ix2 k q)) + b (ix2 (0 : Fin 1) q)) 0

/-- Two dense-layer outputs agree when the entries they read agree. -/
theorem denseAt_congr {R R' : Nat} (a x : (⟨2, ![R, 64]⟩ : Shape).Idx → EReal) (a' x' : (⟨2, ![R', 64]⟩ : Shape).Idx → EReal)
    (wl wl' : (⟨2, ![64, 64]⟩ : Shape).Idx → EReal) (b b' : (⟨2, ![1, 64]⟩ : Shape).Idx → EReal)
    (wr wr' : (⟨2, ![64, 64]⟩ : Shape).Idx → EReal) (p : Fin R) (p' : Fin R') (q q' : Fin 64)
    (ha : ∀ k : Fin 64, a (ix2 p k) = a' (ix2 p' k)) (hx : ∀ k : Fin 64, x (ix2 p k) = x' (ix2 p' k))
    (hwl : ∀ k : Fin 64, wl (ix2 k q) = wl' (ix2 k q')) (hb : b (ix2 (0 : Fin 1) q) = b' (ix2 (0 : Fin 1) q'))
    (hwr : ∀ k : Fin 64, wr (ix2 k q) = wr' (ix2 k q')) :
    denseAt a x wl b wr p q = denseAt a' x' wl' b' wr' p' q' := by
  unfold denseAt
  simp only [ha, hx, hwl, hb, hwr]

/-- A dense layer over the whole node array. -/
def denseArr (a x : FVec Ideal S100000x64 .f32) (wl : FVec Ideal S64x64 .f32) (b : FVec Ideal S1x64 .f32)
    (wr : FVec Ideal S64x64 .f32) : FVec Ideal S100000x64 .f32 :=
  fun i => denseAt a x wl b wr (i 0) (i 1)

/-- A block of 5000 rows times a `64 × 64` matrix on the matrix unit, into the zero accumulator, at `(p, q)`. -/
theorem matmul_block_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) :=
  PlainDot.matmul_zero_apply 5000 64 64 none l r (ix2 p q)

/-- The offsets of a load or store of a whole block. -/
theorem zero_offsets : (![0, 0] : Fin 2 → Nat) = fun _ => 0 := funext fun a => by fin_cases a <;> rfl

end Cert.KernelIdeal.DenseValue

end
-- ==== Proof.DenseRegion0.lean ====
/-
  A dense layer's kernel region: what its output array holds after the region's run.

  The region walks twenty grid points; point `t` loads rows `5000·t … 5000·t + 4999` of the aggregate and of the node
  features, the whole of both weight matrices and of the bias row, and writes back the dense layer of that block of
  rows. The body's stored value at an index of the block is the dense layer's formula over the loaded blocks; a loaded
  block's entry is the array's entry at the block's offset; and the twenty row blocks tile the output array. So after the
  region the output array is the dense layer of the arrays the region found, index by index.
-/
import proofs.«102318_j76613626626158_1_alg».proof.Proof.Gen.KernelIdeal.Frame
import proofs.«102318_j76613626626158_1_alg».proof.Proof.DenseLayer

set_option maxRecDepth 16384

noncomputable section

namespace Cert.KernelIdeal.DenseValue

open Cert.KernelIdeal Cert.KernelIdeal.Gen Idealize.ShloMosaic Idealize.ShloMosaic.ValueIdx Idealize.ShloMosaic.TcCoe Idealize.SL.Sem
open Idealize.ShloMosaic.Pipeline (Dat Cfg Window)

/-- The region's body at `(p, q)` of its block. -/
theorem pay0_apply (x0 x1 : FVec Ideal S5000x64 .f32) (x2 x4 : FVec Ideal S64x64 .f32) (x3 : FVec Ideal S1x64 .f32)
    (p : Fin 5000) (q : Fin 64) :
    k0_pay1 (F := Ideal) x0 x1 x2 x4 x3 (ix2 p q) = denseAt x0 x1 x2 x3 x4 p q := by
  unfold k0_pay1 denseAt
  simp only [shapeCast_self]
  show max (matmul dot_S5000x64_S64x64_S5000x64_1_0_0_1_n_n none (truncf .bf16 x0 bitsLt_bf16_f32) (truncf .bf16 x2 bitsLt_bf16_f32) (constant S5000x64 .f32 0x00000000#32) (ix2 p q)
      + matmul dot_S5000x64_S64x64_S5000x64_1_0_0_1_n_n none (truncf .bf16 x1 bitsLt_bf16_f32) (truncf .bf16 x4 bitsLt_bf16_f32) (constant S5000x64 .f32 0x00000000#32) (ix2 p q)
      + broadcastTo S5000x64 x3 broadcasts_S1x64_S5000x64 (ix2 p q)) (Ideal.ofBits .f32 0x00000000#32) = _
  rw [matmul_block_apply, matmul_block_apply, broadcastTo_1b_ab_apply, Ideal.ofBits_zero_f32]
  rfl

/-- The body at any index of its block. -/
theorem pay0_at (x0 x1 : FVec Ideal S5000x64 .f32) (x2 x4 : FVec Ideal S64x64 .f32) (x3 : FVec Ideal S1x64 .f32)
    (y : S5000x64.Idx) : k0_pay1 (F := Ideal) x0 x1 x2 x4 x3 y = denseAt x0 x1 x2 x3 x4 (y 0) (y 1) := by
  obtain ⟨p, q, rfl⟩ : ∃ (p : Fin 5000) (q : Fin 64), y = ix2 p q := ⟨y 0, y 1, eq_ix2 y⟩
  exact pay0_apply x0 x1 x2 x4 x3 p q

section Region

variable (V : (c : Dev nD) → (b : Ref sig .tc) → Buf (Elt Ideal) ((c : Thread nD τ).loc b))
/-- The index maps of the region's windows, decided over its twenty grid points: the two row-blocked inputs and the output
    sit at row block `t`, column block zero; the weights and the bias are one block each. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point `t` writes back is block `t` of the dense layer of the arrays as the region finds them. -/
theorem flushed0_eq (c : Dev nD) (t : Fin cfg0.N) :
    (dat0 V c).flushed 5 t = ((cfg0.win 5).blk t).view.read (Elt Ideal)
      (denseArr (V c main_v24) (V c main_arg0) (V c main_v25) (V c main_v27) (V c main_v26)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets,
    View.ld_unit_zero (S := S1x64) zero_offsets]
  funext y
  show k0_pay1 (F := Ideal) (iblk0 V c 0 t) (iblk0 V c 1 t) (iblk0 V c 2 t) (iblk0 V c 4 t) (iblk0 V c 3 t) y
      = denseArr (V c main_v24) (V c main_arg0) (V c main_v25) (V c main_v27) (V c main_v26) (((cfg0.win 5).blk t).view.emb y)
  refine (pay0_at (iblk0 V c 0 t) (iblk0 V c 1 t) (iblk0 V c 2 t) (iblk0 V c 4 t) (iblk0 V c 3 t) y).trans ?_
  obtain ⟨e00, e01, e10, e11, e20, e21, e30, e31, e40, e41, e50, e51⟩ := idx_facts0 t
  unfold denseArr
  refine denseAt_congr _ _ _ _ _ _ _ _ _ _ _ _ _ _ (fun k => ?_) (fun k => ?_) (fun k => ?_) ?_ (fun k => ?_)
  · show V c main_v24 (((cfg0.win 0).blk t).view.emb (ix2 (y 0) k)) = V c main_v24 (ix2 ((((cfg0.win 5).blk t).view.emb y) 0) k)
    refine congrArg _ (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 64 + 1 * k.val = k.val; omega
  · show V c main_arg0 (((cfg0.win 1).blk t).view.emb (ix2 (y 0) k)) = V c main_arg0 (ix2 ((((cfg0.win 5).blk t).view.emb y) 0) k)
    refine congrArg _ (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 64 + 1 * k.val = k.val; omega
  · show V c main_v25 (((cfg0.win 2).blk t).view.emb (ix2 k (y 1))) = V c main_v25 (ix2 k ((((cfg0.win 5).blk t).view.emb y) 1))
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * (y 1).val = win0_5.index t (1 : Fin 2) * 64 + 1 * (y 1).val; omega
  · show V c main_v27 (((cfg0.win 3).blk t).view.emb (ix2 (0 : Fin 1) (y 1))) = V c main_v27 (ix2 (0 : Fin 1) ((((cfg0.win 5).blk t).view.emb y) 1))
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * (y 1).val = win0_5.index t (1 : Fin 2) * 64 + 1 * (y 1).val; omega
  · show V c main_v26 (((cfg0.win 4).blk t).view.emb (ix2 k (y 1))) = V c main_v26 (ix2 k ((((cfg0.win 5).blk t).view.emb y) 1))
    refine congrArg _ (funext fun a => Fin.ext ?_)
    match a with
    | ⟨0, _⟩ => show win0_4.index t (0 : Fin 2) * 64 + 1 * k.val = k.val; omega
    | ⟨1, _⟩ => show win0_4.index t (1 : Fin 2) * 64 + 1 * (y 1).val = win0_5.index t (1 : Fin 2) * 64 + 1 * (y 1).val; omega

/-- An index of the output array lies in grid point `t`'s block iff each coordinate lies in the block's range. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Row `r` of the output array is written by the grid point `r / 5000`: the twenty blocks tile the array. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have hlt : (i 0).val / 5000 < grid0.N := by omega
  obtain ⟨-, -, -, -, -, -, -, -, -, -, e50, e51⟩ := idx_facts0 ⟨(i 0).val / 5000, hlt⟩
  refine ⟨⟨(i 0).val / 5000, hlt⟩, flush0_5 _, ?_⟩
  rw [mem_blk0]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    omega

/-- After the region its output array holds the dense layer of the arrays the region found. -/
theorem region0_array (c : Dev nD) :
    (dat0 V c).arrAt 5 cfg0.N = denseArr (V c main_v24) (V c main_arg0) (V c main_v25) (V c main_v27) (V c main_v26) :=
  (dat0 V c).arrAt_eq_of_cover 5 _ (fun t _ => flushed0_eq V c t) cover0

end Region

end Cert.KernelIdeal.DenseValue

end
-- ==== Proof.DenseRegion1.lean ====
/-
  A dense layer's kernel region: what its output array holds after the region's run.

  The region walks twenty grid points; point `t` loads rows `5000·t … 5000·t + 4999` of the aggregate and of the node
  features, the whole of both weight matrices and of the bias row, and writes back the dense layer of that block of
  rows. The body's stored value at an index of the block is the dense layer's formula over the loaded blocks; a loaded
  block's entry is the array's entry at the block's offset; and the twenty row blocks tile the output array. So after the
  region the output array is the dense layer of the arrays the region found, index by index.
-/
import proofs.«102318_j76613626626158_1_alg».proof.Proof.Gen.KernelIdeal.Frame
import proofs.«102318_j76613626626158_1_alg».proof.Proof.DenseLayer

set_option maxRecDepth 16384

noncomputable section

namespace Cert.KernelIdeal.DenseValue

open Cert.KernelIdeal Cert.KernelIdeal.Gen Idealize.ShloMosaic Idealize.ShloMosaic.ValueIdx Idealize.ShloMosaic.TcCoe Idealize.SL.Sem
open Idealize.ShloMosaic.Pipeline (Dat Cfg Window)

/-- The region's body at `(p, q)` of its block. -/
theorem pay1_apply (x0 x1 : FVec Ideal S5000x64 .f32) (x2 x4 : FVec Ideal S64x64 .f32) (x3 : FVec Ideal S1x64 .f32)
    (p : Fin 5000) (q : Fin 64) :
    k1_pay1 (F := Ideal) x0 x1 x2 x4 x3 (ix2 p q) = denseAt x0 x1 x2 x3 x4 p q := by
  unfold k1_pay1 denseAt
  simp only [shapeCast_self]
  show max (matmul dot_S5000x64_S64x64_S5000x64_1_0_0_1_n_n none (truncf .bf16 x0 bitsLt_bf16_f32) (truncf .bf16 x2 bitsLt_bf16_f32) (constant S5000x64 .f32 0x00000000#32) (ix2 p q)
      + matmul dot_S5000x64_S64x64_S5000x64_1_0_0_1_n_n none (truncf .bf16 x1 bitsLt_bf16_f32) (truncf .bf16 x4 bitsLt_bf16_f32) (constant S5000x64 .f32 0x00000000#32) (ix2 p q)
      + broadcastTo S5000x64 x3 broadcasts_S1x64_S5000x64 (ix2 p q)) (Ideal.ofBits .f32 0x00000000#32) = _
  rw [matmul_block_apply, matmul_block_apply, broadcastTo_1b_ab_apply, Ideal.ofBits_zero_f32]
  rfl

/-- The body at any index of its block. -/
theorem pay1_at (x0 x1 : FVec Ideal S5000x64 .f32) (x2 x4 : FVec Ideal S64x64 .f32) (x3 : FVec Ideal S1x64 .f32)
    (y : S5000x64.Idx) : k1_pay1 (F := Ideal) x0 x1 x2 x4 x3 y = denseAt x0 x1 x2 x3 x4 (y 0) (y 1) := by
  obtain ⟨p, q, rfl⟩ : ∃ (p : Fin 5000) (q : Fin 64), y = ix2 p q := ⟨y 0, y 1, eq_ix2 y⟩
  exact pay1_apply x0 x1 x2 x4 x3 p q

section Region

variable (V : (c : Dev nD) → (b : Ref sig .tc) → Buf (Elt Ideal) ((c : Thread nD τ).loc b))
/-- The index maps of the region's windows, decided over its twenty grid points: the two row-blocked inputs and the output
    sit at row block `t`, column block zero; the weights and the bias are one block each. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What grid point `t` writes back is block `t` of the dense layer of the arrays as the region finds them. -/
theorem flushed1_eq (c : Dev nD) (t : Fin cfg1.N) :
    (dat1 V c).flushed 5 t = ((cfg1.win 5).blk t).view.read (Elt Ideal)
      (denseArr (V c main_v41) (V c main_v28) (V c main_v42) (V c main_v44) (V c main_v43)) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S64x64) zero_offsets,
    View.ld_unit_zero (S := S1x64) zero_offsets]
  funext y
  show k1_pay1 (F := Ideal) (iblk1 V c 0 t) (iblk1 V c 1 t) (iblk1 V c 2 t) (iblk1 V c 4 t) (iblk1 V c 3 t) y
      = denseArr (V c main_v41) (V c main_v28) (V c main_v42) (V c main_v44) (V c main_v43) (((cfg1.win 5).blk t).view.emb y)
  refine (pay1_at (iblk1 V c 0 t) (iblk1 V c 1 t) (iblk1 V c 2 t) (iblk1 V c 4 t) (iblk1 V c 3 t) y).trans ?_
  obtain ⟨e00, e01, e10, e11, e20, e21, e30, e31, e40, e41, e50, e51⟩ := idx_facts1 t
  unfold denseArr
  refine denseAt_congr _ _ _ _ _ _ _ _ _ _ _ _ _ _ (fun k => ?_) (fun k => ?_) (fun k => ?_) ?_ (fun k => ?_)
  · show V c main_v41 (((cfg1.win 0).blk t).view.emb (ix2 (y 0) k)) = V c main_v41 (ix2 ((((cfg1.win 5).blk t).view.emb y) 0) k)
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 64 + 1 * k.val = k.val; omega
  · show V c main_v28 (((cfg1.win 1).blk t).view.emb (ix2 (y 0) k)) = V c main_v28 (ix2 ((((cfg1.win 5).blk t).view.emb y) 0) k)
    refine congrArg _ (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 64 + 1 * k.val = k.val; omega
  · show V c main_v42 (((cfg1.win 2).blk t).view.emb (ix2 k (y 1))) = V c main_v42 (ix2 k ((((cfg1.win 5).blk t).view.emb y) 1))
    refine congrArg _ (funext fun a => Fin.ext ?_)
    match a with
    | ⟨0, _⟩ => show win1_2.index t (0 : Fin 2) * 64 + 1 * k.val = k.val; omega
    | ⟨1, _⟩ => show win1_2.index t (1 : Fin 2) * 64 + 1 * (y 1).val = win1_5.index t (1 : Fin 2) * 64 + 1 * (y 1).val; omega
  · show V c main_v44 (((cfg1.win 3).blk t).view.emb (ix2 (0 : Fin 1) (y 1))) = V c main_v44 (ix2 (0 : Fin 1) ((((cfg1.win 5).blk t).view.emb y) 1))
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * (y 1).val = win1_5.index t (1 : Fin 2) * 64 + 1 * (y 1).val; omega
  · show V c main_v43 (((cfg1.win 4).blk t).view.emb (ix2 k (y 1))) = V c main_v43 (ix2 k ((((cfg1.win 5).blk t).view.emb y) 1))
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * (y 1).val = win1_5.index t (1 : Fin 2) * 64 + 1 * (y 1).val; omega

/-- An index of the output array lies in grid point `t`'s block iff each coordinate lies in the block's range. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Row `r` of the output array is written by the grid point `r / 5000`: the twenty blocks tile the array. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  have hlt : (i 0).val / 5000 < grid1.N := by omega
  obtain ⟨-, -, -, -, -, -, -, -, -, -, e50, e51⟩ := idx_facts1 ⟨(i 0).val / 5000, hlt⟩
  refine ⟨⟨(i 0).val / 5000, hlt⟩, flush1_5 _, ?_⟩
  rw [mem_blk1]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    omega

/-- After the region its output array holds the dense layer of the arrays the region found. -/
theorem region1_array (c : Dev nD) :
    (dat1 V c).arrAt 5 cfg1.N = denseArr (V c main_v41) (V c main_v28) (V c main_v42) (V c main_v44) (V c main_v43) :=
  (dat1 V c).arrAt_eq_of_cover 5 _ (fun t _ => flushed1_eq V c t) cover1

end Region

end Cert.KernelIdeal.DenseValue

end
-- ==== Proof.HeadRegion.lean ====
/-
  The pooled head's kernel region: what its output array holds after the region's run.

  The head takes the pooled graph embeddings `g` (`512 × 64`), a `64 × 64` weight matrix `wg` and a `64 × 5` weight
  matrix `wo`, both already transposed (input feature down the rows), and two bias rows `bg` (`1 × 64`) and `bo`
  (`1 × 5`). Its output at graph `p`, class `q` is

      ∑ₖ max ( ∑ⱼ g(p,j)·wg(j,k) + bg(0,k) , 0 ) · wo(k,q)  +  bo(0,q).

  The region has one grid point and every window is its whole array, so what the point writes back is the whole output.
  The roundings to bf16 before the two products are the identity on the extended reals.
-/
import proofs.«102318_j76613626626158_1_alg».proof.Proof.Gen.KernelIdeal.Frame
import proofs.«102318_j76613626626158_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadValue

open Cert.KernelIdeal Cert.KernelIdeal.Gen Idealize.ShloMosaic Idealize.ShloMosaic.ValueIdx Idealize.ShloMosaic.TcCoe Idealize.SL.Sem
open Idealize.ShloMosaic.Pipeline (Dat Cfg Window)

/-- The head's output at graph `p`, class `q`. -/
def headAt (g : (⟨2, ![512, 64]⟩ : Shape).Idx → EReal) (wg : (⟨2, ![64, 64]⟩ : Shape).Idx → EReal)
    (bg : (⟨2, ![1, 64]⟩ : Shape).Idx → EReal) (wo : (⟨2, ![64, 5]⟩ : Shape).Idx → EReal)
    (bo : (⟨2, ![1, 5]⟩ : Shape).Idx → EReal) (p : Fin 512) (q : Fin 5) : EReal :=
  (∑ k : Fin 64, max ((∑ j : Fin 64, g (ix2 p j) * wg (ix2 j k)) + bg (ix2 (0 : Fin 1) k)) 0 * wo (ix2 k q)) + bo (ix2 (0 : Fin 1) q)

/-- The head over all graphs. -/
def headArr (g : FVec Ideal S512x64 .f32) (wg : FVec Ideal S64x64 .f32) (bg : FVec Ideal S1x64 .f32)
    (wo : FVec Ideal S64x5 .f32) (bo : FVec Ideal S1x5 .f32) : FVec Ideal S512x5 .f32 :=
  fun i => headAt g wg bg wo bo (i 0) (i 1)

/-- The hidden product on the matrix unit, into the zero accumulator, at `(p, k)`. -/
theorem matmul_hidden_apply {φ₁ φ₂ : FTy} (l : FVec Ideal S512x64 φ₁) (r : FVec Ideal S64x64 φ₂) (p : Fin 512) (k : Fin 64) :
    matmul dot_S512x64_S64x64_S512x64_1_0_0_1_n_n none l r (constant S512x64 .f32 0x00000000#32) (ix2 p k)
      = ∑ j : Fin 64, l (ix2 p j) * r (ix2 j k) :=
  PlainDot.matmul_zero_apply 512 64 64 none l r (ix2 p k)

/-- The output product on the matrix unit, into the zero accumulator, at `(p, q)`. -/
theorem matmul_out_apply {φ₁ φ₂ : FTy} (l : FVec Ideal S512x64 φ₁) (r : FVec Ideal S64x5 φ₂) (p : Fin 512) (q : Fin 5) :
    matmul dot_S512x64_S64x5_S512x5_1_0_0_1_n_n none l r (constant S512x5 .f32 0x00000000#32) (ix2 p q)
      = ∑ k : Fin 64, l (ix2 p k) * r (ix2 k q) :=
  PlainDot.matmul_zero_apply 512 64 5 none l r (ix2 p q)

/-- The region's body at `(p, q)`. -/
theorem pay2_apply (x0 : FVec Ideal S512x64 .f32) (x1 : FVec Ideal S64x64 .f32) (x2 : FVec Ideal S1x64 .f32)
    (x3 : FVec Ideal S64x5 .f32) (x4 : FVec Ideal S1x5 .f32) (p : Fin 512) (q : Fin 5) :
    k2_pay1 (F := Ideal) x0 x1 x2 x3 x4 (ix2 p q) = headAt x0 x1 x2 x3 x4 p q := by
  unfold k2_pay1 headAt
  simp only [shapeCast_self]
  show matmul dot_S512x64_S64x5_S512x5_1_0_0_1_n_n none
        (truncf .bf16 (maximumf (addf (matmul dot_S512x64_S64x64_S512x64_1_0_0_1_n_n none (truncf .bf16 x0 bitsLt_bf16_f32) (truncf .bf16 x1 bitsLt_bf16_f32) (constant S512x64 .f32 0x00000000#32))
          (broadcastTo S512x64 x2 broadcasts_S1x64_S512x64)) (broadcast S512x64 (Scalar.ofBits (F := Ideal) .f32 0x00000000#32))) bitsLt_bf16_f32)
        (truncf .bf16 x3 bitsLt_bf16_f32) (constant S512x5 .f32 0x00000000#32) (ix2 p q)
      + broadcastTo S512x5 x4 broadcasts_S1x5_S512x5 (ix2 p q) = _
  rw [matmul_out_apply, broadcastTo_1b_ab_apply]
  refine congrArg (· + x4 (ix2 (0 : Fin 1) q)) (Finset.sum_congr rfl fun k _ => ?_)
  show max (matmul dot_S512x64_S64x64_S512x64_1_0_0_1_n_n none (truncf .bf16 x0 bitsLt_bf16_f32) (truncf .bf16 x1 bitsLt_bf16_f32) (constant S512x64 .f32 0x00000000#32) (ix2 p k)
      + broadcastTo S512x64 x2 broadcasts_S1x64_S512x64 (ix2 p k)) (Ideal.ofBits .f32 0x00000000#32) * x3 (ix2 k q) = _
  rw [matmul_hidden_apply, broadcastTo_1b_ab_apply, Ideal.ofBits_zero_f32]
  rfl

/-- The body at any index. -/
theorem pay2_at (x0 : FVec Ideal S512x64 .f32) (x1 : FVec Ideal S64x64 .f32) (x2 : FVec Ideal S1x64 .f32)
    (x3 : FVec Ideal S64x5 .f32) (x4 : FVec Ideal S1x5 .f32) (y : S512x5.Idx) :
    k2_pay1 (F := Ideal) x0 x1 x2 x3 x4 y = headAt x0 x1 x2 x3 x4 (y 0) (y 1) := by
  obtain ⟨p, q, rfl⟩ : ∃ (p : Fin 512) (q : Fin 5), y = ix2 p q := ⟨y 0, y 1, eq_ix2 y⟩
  exact pay2_apply x0 x1 x2 x3 x4 p q

theorem zero_offsets : (![0, 0] : Fin 2 → Nat) = fun _ => 0 := funext fun a => by fin_cases a <;> rfl

section Region

variable (V : (c : Dev nD) → (b : Ref sig .tc) → Buf (Elt Ideal) ((c : Thread nD τ).loc b))

/-- The index maps of the region's windows at its one grid point: every block index is zero. -/
theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Each input window's one block is its whole array. -/
theorem blk2_0 (c : Dev nD) (t : Fin cfg2.N) (z : S512x64.Idx) : iblk2 V c 0 t z = V c main_v57 z := by
  obtain ⟨e00, e01, -⟩ := idx_facts2 t
  show V c main_v57 (((cfg2.win 0).blk t).view.emb z) = V c main_v57 z
  refine congrArg _ (funext fun a => Fin.ext ?_)
  match a with
  | ⟨0, _⟩ => show win2_0.index t (0 : Fin 2) * 512 + 1 * (z 0).val = (z 0).val; omega
  | ⟨1, _⟩ => show win2_0.index t (1 : Fin 2) * 64 + 1 * (z 1).val = (z 1).val; omega
theorem blk2_1 (c : Dev nD) (t : Fin cfg2.N) (z : S64x64.Idx) : iblk2 V c 1 t z = V c main_v58 z := by
  obtain ⟨-, -, e10, e11, -⟩ := idx_facts2 t
  show V c main_v58 (((cfg2.win 1).blk t).view.emb z) = V c main_v58 z
  refine congrArg _ (funext fun a => Fin.ext ?_)
  match a with
  | ⟨0, _⟩ => show win2_1.index t (0 : Fin 2) * 64 + 1 * (z 0).val = (z 0).val; omega
  | ⟨1, _⟩ => show win2_1.index t (1 : Fin 2) * 64 + 1 * (z 1).val = (z 1).val; omega
theorem blk2_2 (c : Dev nD) (t : Fin cfg2.N) (z : S1x64.Idx) : iblk2 V c 2 t z = V c main_v60 z := by
  obtain ⟨-, -, -, -, e20, e21, -⟩ := idx_facts2 t
  show V c main_v60 (((cfg2.win 2).blk t).view.emb z) = V c main_v60 z
  refine congrArg _ (funext fun a => Fin.ext ?_)
  match a with
  | ⟨0, _⟩ => show win2_2.index t (0 : Fin 2) * 1 + 1 * (z 0).val = (z 0).val; omega
  | ⟨1, _⟩ => show win2_2.index t (1 : Fin 2) * 64 + 1 * (z 1).val = (z 1).val; omega
theorem blk2_3 (c : Dev nD) (t : Fin cfg2.N) (z : S64x5.Idx) : iblk2 V c 3 t z = V c main_v59 z := by
  obtain ⟨-, -, -, -, -, -, e30, e31, -⟩ := idx_facts2 t
  show V c main_v59 (((cfg2.win 3).blk t).view.emb z) = V c main_v59 z
  refine congrArg _ (funext fun a => Fin.ext ?_)
  match a with
  | ⟨0, _⟩ => show win2_3.index t (0 : Fin 2) * 64 + 1 * (z 0).val = (z 0).val; omega
  | ⟨1, _⟩ => show win2_3.index t (1 : Fin 2) * 5 + 1 * (z 1).val = (z 1).val; omega
theorem blk2_4 (c : Dev nD) (t : Fin cfg2.N) (z : S1x5.Idx) : iblk2 V c 4 t z = V c main_v61 z := by
  obtain ⟨-, -, -, -, -, -, -, -, e40, e41, -⟩ := idx_facts2 t
  show V c main_v61 (((cfg2.win 4).blk t).view.emb z) = V c main_v61 z
  refine congrArg _ (funext fun a => Fin.ext ?_)
  match a with
  | ⟨0, _⟩ => show win2_4.index t (0 : Fin 2) * 1 + 1 * (z 0).val = (z 0).val; omega
  | ⟨1, _⟩ => show win2_4.index t (1 : Fin 2) * 5 + 1 * (z 1).val = (z 1).val; omega

/-- What the one grid point writes back is the head of the arrays as the region finds them. -/
theorem flushed2_eq (c : Dev nD) (t : Fin cfg2.N) :
    (dat2 V c).flushed 5 t = ((cfg2.win 5).blk t).view.read (Elt Ideal)
      (headArr (V c main_v57) (V c main_v58) (V c main_v60) (V c main_v59) (V c main_v61)) := by
  show (cfg2.win 5).cut (grid2.coords t) ((dat2 V c).after 5 t) = _
  rw [after2_5]
  unfold out2_5
  rw [View.canon_unit_zero zero_offsets]
  simp only [View.ld_unit_zero (S := S512x64) zero_offsets, View.ld_unit_zero (S := S64x64) zero_offsets,
    View.ld_unit_zero (S := S1x64) zero_offsets, View.ld_unit_zero (S := S64x5) zero_offsets, View.ld_unit_zero (S := S1x5) zero_offsets]
  funext y
  show k2_pay1 (F := Ideal) (iblk2 V c 0 t) (iblk2 V c 1 t) (iblk2 V c 2 t) (iblk2 V c 3 t) (iblk2 V c 4 t) y
      = headArr (V c main_v57) (V c main_v58) (V c main_v60) (V c main_v59) (V c main_v61) (((cfg2.win 5).blk t).view.emb y)
  refine (pay2_at (iblk2 V c 0 t) (iblk2 V c 1 t) (iblk2 V c 2 t) (iblk2 V c 3 t) (iblk2 V c 4 t) y).trans ?_
  obtain ⟨-, -, -, -, -, -, -, -, -, -, e50, e51⟩ := idx_facts2 t
  have hy : ((cfg2.win 5).blk t).view.emb y = y := by
    funext a; apply Fin.ext
    match a with
    | ⟨0, _⟩ => show win2_5.index t (0 : Fin 2) * 512 + 1 * (y 0).val = (y 0).val; omega
    | ⟨1, _⟩ => show win2_5.index t (1 : Fin 2) * 5 + 1 * (y 1).val = (y 1).val; omega
  rw [hy]
  unfold headArr headAt
  simp only [blk2_0 V c t, blk2_1 V c t, blk2_2 V c t, blk2_3 V c t, blk2_4 V c t]

/-- An index of the output array lies in the one block. -/
theorem cover2 (i : S512x5.Idx) : ∃ t : Fin cfg2.N, (cfg2.win 5).flush t = true ∧ i ∈ ((cfg2.win 5).blk t).view.set := by
  have hi0 : (i 0).val < 512 := (i 0).isLt
  have hi1 : (i 1).val < 5 := (i 1).isLt
  obtain ⟨-, -, -, -, -, -, -, -, -, -, e50, e51⟩ := idx_facts2 t2_0
  refine ⟨t2_0, flush2_5 _, ?_⟩
  show i ∈ ((View.whole main_v62).slice (win2_5.rect t2_0)).set
  rw [View.set_slice_whole, Rect.mem_set_unit]
  intro a
  match a with
  | ⟨0, _⟩ => show win2_5.index t2_0 (0 : Fin 2) * 512 ≤ (i 0).val ∧ (i 0).val < win2_5.index t2_0 (0 : Fin 2) * 512 + 512; omega
  | ⟨1, _⟩ => show win2_5.index t2_0 (1 : Fin 2) * 5 ≤ (i 1).val ∧ (i 1).val < win2_5.index t2_0 (1 : Fin 2) * 5 + 5; omega

/-- After the region its output array holds the head of the arrays the region found. -/
theorem region2_array (c : Dev nD) :
    (dat2 V c).arrAt 5 cfg2.N = headArr (V c main_v57) (V c main_v58) (V c main_v60) (V c main_v59) (V c main_v61) :=
  (dat2 V c).arrAt_eq_of_cover 5 _ (fun t _ => flushed2_eq V c t) cover2

end Region

end Cert.KernelIdeal.HeadValue

end
-- ==== Proof.KernelValue.lean ====
/-
  The program's result as one function of its arguments, at the ideal values.

  Reading the run's last contents back through its stretches and regions: the result array is the pooled head of the
  graph means of the second dense layer's output; that layer reads the mean over neighbours of the first layer's output
  and that output itself; the first layer reads the mean over neighbours of the input features and the features. Every
  weight matrix enters transposed and every bias as a row, as the host operations before each region lay them out.
-/
import proofs.«102318_j76613626626158_1_alg».proof.Proof.ChainA
import proofs.«102318_j76613626626158_1_alg».proof.Proof.ChainB
import proofs.«102318_j76613626626158_1_alg».proof.Proof.ChainC
import proofs.«102318_j76613626626158_1_alg».proof.Proof.DenseRegion0
import proofs.«102318_j76613626626158_1_alg».proof.Proof.DenseRegion1
import proofs.«102318_j76613626626158_1_alg».proof.Proof.HeadRegion

set_option maxRecDepth 16384

noncomputable section

namespace Cert.KernelIdeal.Chain

open Cert.KernelIdeal Cert.KernelIdeal.Gen Cert.KernelIdeal.Glue Cert.KernelIdeal.DenseValue Cert.KernelIdeal.HeadValue
open Idealize.ShloMosaic Idealize.ShloMosaic.TcCoe Idealize.SL.Sem

/-- One dense layer of the network from its operands as the program holds them: the mean over neighbours (as a product
    with the reciprocal degree) and the features themselves, the weights transposed, the bias as a row. -/
def layerOut (h : FVec Ideal S100000x64 .f32) (ei : IVec S2x1600000 32) (wl : FVec Ideal S64x64 .f32) (b : FVec Ideal S64 .f32)
    (wr : FVec Ideal S64x64 .f32) : FVec Ideal S100000x64 .f32 :=
  denseArr (meanByProduct h (srcRow ei) (dstRow ei)) h (transposed wl) (asRow b) (transposed wr)

/-- The program's result, of its thirteen arguments. -/
def kernelOut (x : FVec Ideal S100000x64 .f32) (w1l : FVec Ideal S64x64 .f32) (b1l : FVec Ideal S64 .f32) (w1r : FVec Ideal S64x64 .f32)
    (w2l : FVec Ideal S64x64 .f32) (b2l : FVec Ideal S64 .f32) (w2r : FVec Ideal S64x64 .f32)
    (wg : FVec Ideal S64x64 .f32) (bg : FVec Ideal S64 .f32) (wo : FVec Ideal S5x64 .f32) (bo : FVec Ideal S5 .f32)
    (ei : IVec S2x1600000 32) (batch : IVec S100000 32) : FVec Ideal S512x5 .f32 :=
  headArr (graphMean (layerOut (layerOut x ei w1l b1l w1r) ei w2l b2l w2r) batch)
    (transposed wg) (asRow bg) (transposedOut wo) (asRowOut bo)

variable (m : (ℓ : Loc nD τ sig) → Buf (Elt Ideal) ℓ) (ρ : Dev nD → PrngReg)

/-- The first layer's output array after its region. -/
theorem first_output (c : Dev nD) :
    W2 m ρ c (Proc.devRef .tc main_v28) = layerOut (m ((c : Thread nD τ).loc main_arg0)) (m ((c : Thread nD τ).loc main_arg11)) (m ((c : Thread nD τ).loc main_arg1)) (m ((c : Thread nD τ).loc main_arg2)) (m ((c : Thread nD τ).loc main_arg3)) := by
  refine (W2_arr m ρ c 5).trans ((region0_array (V1 m ρ) c).trans ?_)
  unfold layerOut
  rw [show V1 m ρ c main_v24 = _ from first_mean m ρ c, show V1 m ρ c main_arg0 = _ from arg0_after0 m ρ c,
    show V1 m ρ c main_v25 = _ from first_weights_l m ρ c, show V1 m ρ c main_v27 = _ from first_bias m ρ c,
    show V1 m ρ c main_v26 = _ from first_weights_r m ρ c]

/-- The second layer's output array after its region. -/
theorem second_output (c : Dev nD) :
    W4 m ρ c (Proc.devRef .tc main_v45)
      = layerOut (layerOut (m ((c : Thread nD τ).loc main_arg0)) (m ((c : Thread nD τ).loc main_arg11)) (m ((c : Thread nD τ).loc main_arg1)) (m ((c : Thread nD τ).loc main_arg2)) (m ((c : Thread nD τ).loc main_arg3)))
          (m ((c : Thread nD τ).loc main_arg11)) (m ((c : Thread nD τ).loc main_arg4)) (m ((c : Thread nD τ).loc main_arg5)) (m ((c : Thread nD τ).loc main_arg6)) := by
  refine (W4_arr m ρ c 5).trans ((region1_array (V3 m ρ) c).trans ?_)
  rw [show V3 m ρ c main_v41 = _ from second_mean m ρ c, show V3 m ρ c main_v28 = _ from first_output_after1 m ρ c,
    show V3 m ρ c main_v42 = _ from second_weights_l m ρ c, show V3 m ρ c main_v44 = _ from second_bias m ρ c,
    show V3 m ρ c main_v43 = _ from second_weights_r m ρ c]
  rw [first_output m ρ c,
    (W2_of_ne m ρ c main_v1 (by decide)).trans (kept_src m ρ c),
    (W2_of_ne m ρ c main_v3 (by decide)).trans (kept_dst m ρ c),
    (W2_of_ne m ρ c main_v11 (by decide)).trans (kept_recip m ρ c),
    (W2_of_ne m ρ c main_arg4 (by decide)).trans (arg4_after0 m ρ c),
    (W2_of_ne m ρ c main_arg5 (by decide)).trans (arg5_after0 m ρ c),
    (W2_of_ne m ρ c main_arg6 (by decide)).trans (arg6_after0 m ρ c)]
  rfl

/-- The result array after the run: the program's function of its arguments' launch contents. -/
theorem result (c : Dev nD) :
    W6 m ρ c (Proc.devRef .tc main_v62)
      = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((region2_array (V5 m ρ) c).trans ?_)
  rw [show V5 m ρ c main_v57 = _ from pooled m ρ c, show V5 m ρ c main_v58 = _ from head_weights_g m ρ c,
    show V5 m ρ c main_v60 = _ from head_bias_g m ρ c, show V5 m ρ c main_v59 = _ from head_weights_o m ρ c,
    show V5 m ρ c main_v61 = _ from head_bias_o m ρ c]
  rw [second_output m ρ c,
    (W4_of_ne m ρ c main_arg12 (by decide)).trans ((arg12_after1 m ρ c).trans ((W2_of_ne m ρ c main_arg12 (by decide)).trans (arg12_after0 m ρ c))),
    (W4_of_ne m ρ c main_arg7 (by decide)).trans ((arg7_after1 m ρ c).trans ((W2_of_ne m ρ c main_arg7 (by decide)).trans (arg7_after0 m ρ c))),
    (W4_of_ne m ρ c main_arg8 (by decide)).trans ((arg8_after1 m ρ c).trans ((W2_of_ne m ρ c main_arg8 (by decide)).trans (arg8_after0 m ρ c))),
    (W4_of_ne m ρ c main_arg9 (by decide)).trans ((arg9_after1 m ρ c).trans ((W2_of_ne m ρ c main_arg9 (by decide)).trans (arg9_after0 m ρ c))),
    (W4_of_ne m ρ c main_arg10 (by decide)).trans ((arg10_after1 m ρ c).trans ((W2_of_ne m ρ c main_arg10 (by decide)).trans (arg10_after0 m ρ c)))]
  rfl

end Cert.KernelIdeal.Chain

end
-- ==== Proof.ScalarLaws.lean ====
/-
  The scalar laws of the extended reals that join the two programs.

  Both programs normalise a neighbour sum by the node's degree, floored at one. One of them forms the reciprocal
  `1 / max d 1` once and multiplies by it; the other divides by `max d 1`. On the extended reals a quotient by a
  nonzero `y` is the product with `y⁻¹`, and `max d 1` is never zero (it is at least one), so the two agree at every
  extended real `x` — the infinities included, and whatever `d` is: no finiteness of the inputs is used.
-/
import Idealize.ShloMosaic.PureOps.Ideal.Laws
import Idealize.ShloMosaic.PureOps.IdealRules

noncomputable section

namespace Cert.SageLaws

open Idealize.ShloMosaic

/-- The pattern of `1.0` at `f32` denotes the extended real one. -/
theorem one_f32 : Ideal.ofBits .f32 0x3F800000#32 = 1 := IdealRules.sign_bit.ideal_onePat .f32

/-- A number floored at one is not zero. -/
theorem max_one_ne_zero (a : EReal) : max a 1 ≠ 0 :=
  ne_of_gt (lt_of_lt_of_le zero_lt_one (le_max_right a 1))

/-- Multiplying by the reciprocal of a number floored at one is dividing by it. -/
theorem mul_recip (x a : EReal) : x * Ideal.div 1 (max a 1) = Ideal.div x (max a 1) := by
  unfold Ideal.div
  rw [if_neg (max_one_ne_zero a), if_neg (max_one_ne_zero a), one_mul]

/-- The same with the two ones written as the pattern of `1.0`, the form both programs print. -/
theorem mul_recip_f32 (x a : EReal) :
    x * Ideal.div (Ideal.ofBits .f32 0x3F800000#32) (max a (Ideal.ofBits .f32 0x3F800000#32))
      = Ideal.div x (max a (Ideal.ofBits .f32 0x3F800000#32)) := by
  rw [one_f32]; exact mul_recip x a

end Cert.SageLaws

end
-- ==== Proof.LibPlainDotHost.lean ====
/-
  The host's `dot_general` with the plain dimension numbers — `M × K` by `K × N`, the left operand contracted on
  its second axis and the right on its first, no batch axis — read at an output index at the ideal values: the sum over
  `k : Fin K` of `l (i, k) · r (k, j)`, the same sum a matrix-unit product into the zero accumulator reads there
  (the sibling file on the plain matrix product proves the re-indexing over `Fin K`; this file only puts the host
  operation in front of it). A printed program's record with these dimension numbers is `DotDims.plain` at its extents
  by `rfl`, so the lemma applies to it directly. Stated for any `M K N`.
-/
import proofs.«102318_j76613626626158_1_alg».proof.Proof.LibPlainDot

noncomputable section

namespace Idealize.ShloMosaic.PlainDot

open Idealize.ShloMosaic Idealize.ShloMosaic.ValueIdx

/-- The host's `dot_general` with the plain dimension numbers, read at `i`. -/
theorem dotGeneral_apply (M K N : Nat) {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    Host.dotGeneral (DotDims.plain M K N) prec l r i = ∑ k : Fin K, l (ix2 (i 0) k) * r (ix2 k (i 1)) := by
  simp only [Host.dotGeneral]
  rw [Ideal.dotGeneral_apply]
  exact sum_contr M K N l r i

end Idealize.ShloMosaic.PlainDot

end
-- ==== Proof.RefValue.lean ====
/-
  The reference program's result as one function of its arguments, and the laws that join it to the kernel program's.

  The reference computes the same network entirely on the host: per layer the mean over neighbours as a QUOTIENT by
  the floored degree, then `relu(agg · Wlᵀ + b + x · Wrᵀ)` with the bias added before the second product; the graph
  means; and the head `relu(g · Wgᵀ + bg) · Woᵀ + bo`. Three laws of the extended reals join the two programs:
  * dividing by a number floored at one is multiplying by its reciprocal (the two forms of the mean);
  * `(A + b) + B = A + B + b`: addition on the extended reals is commutative and associative;
  * a product with the plain dimension numbers is the same sum over the 64 contracted coordinates whether the host or
    the matrix unit forms it.
  No law here needs the inputs to be finite. The gathers and scatter-adds are never opened.
-/
import proofs.«102318_j76613626626158_1_alg».proof.Proof.Gen.ReferenceIdeal.Run
import proofs.«102318_j76613626626158_1_alg».proof.Proof.HostGlue
import proofs.«102318_j76613626626158_1_alg».proof.Proof.ScalarLaws
import proofs.«102318_j76613626626158_1_alg».proof.Proof.LibPlainDotHost
import proofs.«102318_j76613626626158_1_alg».proof.Proof.DenseLayer
import proofs.«102318_j76613626626158_1_alg».proof.Proof.HeadRegion
import proofs.«102318_j76613626626158_1_alg».proof.Proof.KernelValue
import Idealize.ShloMosaic.Lib.Pipeline.Value
import Idealize.ShloMosaic.Lib.ValueIdx
import Idealize.ShloMosaic.Lib.ValueLayout

set_option maxRecDepth 16384

noncomputable section

namespace Cert.RefValue

open Cert.KernelIdeal Cert.KernelIdeal.Gen Cert.KernelIdeal.Glue Cert.KernelIdeal.DenseValue Cert.KernelIdeal.HeadValue
open Idealize.ShloMosaic Idealize.ShloMosaic.ValueIdx Idealize.ShloMosaic.TcCoe Idealize.SL.Sem

section AnyValues

variable {F : FTy → Type} [FloatOps F]

/-- One dense layer as the reference computes it on the host. -/
def refDense (a x : FVec F S100000x64 .f32) (wl : FVec F S64x64 .f32) (b : FVec F S64 .f32) (wr : FVec F S64x64 .f32) :
    FVec F S100000x64 .f32 :=
  maximumf
    (addf
      (addf (Host.dotGeneral Cert.ReferenceIdeal.dot_S100000x64_S64x64_S100000x64_1_0_0_1_n_n none a (transposed wl))
        (broadcastInDim S100000x64 ![0, 1] Cert.ReferenceIdeal.Gen.bcast_S1x64_S100000x64_0_1 (broadcastInDim S1x64 ![1] Cert.ReferenceIdeal.Gen.bcast_S64_S1x64_1 b)))
      (Host.dotGeneral Cert.ReferenceIdeal.dot_S100000x64_S64x64_S100000x64_1_0_0_1_n_n none x (transposed wr)))
    (broadcastInDim S100000x64 ![] bcast_S_S100000x64 (constant S_ .f32 0x00000000#32))

/-- The pooled head as the reference computes it on the host. -/
def refHead (g : FVec F S512x64 .f32) (wg : FVec F S64x64 .f32) (bg : FVec F S64 .f32) (wo : FVec F S5x64 .f32) (bo : FVec F S5 .f32) :
    FVec F S512x5 .f32 :=
  addf
    (Host.dotGeneral Cert.ReferenceIdeal.dot_S512x64_S64x5_S512x5_1_0_0_1_n_n none
      (maximumf
        (addf (Host.dotGeneral Cert.ReferenceIdeal.dot_S512x64_S64x64_S512x64_1_0_0_1_n_n none g (transposed wg))
          (broadcastInDim S512x64 ![0, 1] Cert.ReferenceIdeal.Gen.bcast_S1x64_S512x64_0_1 (broadcastInDim S1x64 ![1] Cert.ReferenceIdeal.Gen.bcast_S64_S1x64_1 bg)))
        (broadcastInDim S512x64 ![] bcast_S_S512x64 (constant S_ .f32 0x00000000#32)))
      (transposedOut wo))
    (broadcastInDim S512x5 ![0, 1] Cert.ReferenceIdeal.Gen.bcast_S1x5_S512x5_0_1 (broadcastInDim S1x5 ![1] Cert.ReferenceIdeal.Gen.bcast_S5_S1x5_1 bo))

/-- One layer of the reference from its operands: the mean over neighbours as a quotient, and the features. -/
def refLayer (h : FVec F S100000x64 .f32) (ei : IVec S2x1600000 32) (wl : FVec F S64x64 .f32) (b : FVec F S64 .f32)
    (wr : FVec F S64x64 .f32) : FVec F S100000x64 .f32 :=
  refDense (meanByQuotient h (srcRow ei) (dstRow ei)) h wl b wr

/-- The reference's result, of its thirteen arguments. -/
def refOut (x : FVec F S100000x64 .f32) (w1l : FVec F S64x64 .f32) (b1l : FVec F S64 .f32) (w1r : FVec F S64x64 .f32)
    (w2l : FVec F S64x64 .f32) (b2l : FVec F S64 .f32) (w2r : FVec F S64x64 .f32)
    (wg : FVec F S64x64 .f32) (bg : FVec F S64 .f32) (wo : FVec F S5x64 .f32) (bo : FVec F S5 .f32)
    (ei : IVec S2x1600000 32) (batch : IVec S100000 32) : FVec F S512x5 .f32 :=
  refHead (graphMean (refLayer (refLayer x ei w1l b1l w1r) ei w2l b2l w2r) batch) wg bg wo bo

set_option maxHeartbeats 4000000 in
/-- The term the reference's run ends at is that function of the launch contents of its arguments: the two are the
    same host operations in the same order. -/
theorem ref_result (m : (ℓ : Loc Cert.ReferenceIdeal.nD Cert.ReferenceIdeal.τ Cert.ReferenceIdeal.sig) → Buf (Elt F) ℓ) (c : Dev Cert.ReferenceIdeal.nD) :
    Cert.ReferenceIdeal.Value.res_main_v82 m c
      = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12)) := by
  unfold Cert.ReferenceIdeal.Value.res_main_v82
  rfl

end AnyValues

/-! ## The laws, at the ideal values -/

section IdealValues

/-- A scalar constant broadcast to any shape reads the constant's value everywhere. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w :=
  broadcastInDim_apply _ h _ j ix0 (fun a => a.elim0)

/-- A per-node number repeated along the features reads, at `(n, f)`, the number at `n`. -/
theorem alongFeatures_apply (v : FVec Ideal S100000 .f32) (p : Fin 100000) (q : Fin 64) :
    alongFeatures v (ix2 p q) = v (ix1 p) := by
  unfold alongFeatures
  refine (broadcastInDim_apply _ bcast_S100000x1_S100000x64_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  exact broadcastInDim_apply _ bcast_S100000_S100000x1_0 v (ix2 p (0 : Fin 1)) (ix1 p) (fun a => match a with
    | ⟨0, _⟩ => by show p.val = if (100000 : Nat) = 1 then 0 else p.val; rw [if_neg (by decide)])

/-- The host's quotient reads, at an index, the quotient of the operands there. -/
theorem host_divf_apply {s : Shape} {φ : FTy} (a b : FVec Ideal s φ) (i : s.Idx) : Host.divf a b i = Ideal.div (a i) (b i) := rfl

/-- The floored degree is some number floored at one (the degree itself is never opened). -/
theorem flooredDegree_apply (d : IVec S1600000 32) (j : S100000.Idx) :
    ∃ D : EReal, flooredDegree (F := Ideal) d j = max D (Ideal.ofBits .f32 0x3F800000#32) := by
  unfold flooredDegree
  generalize Host.scatterAdd (F := Ideal) scatter_S100000_S1600000x1_S1600000_n_0_0_1 _ _ _ = A
  exact ⟨A j, by rw [maximumf_apply, splat_apply]⟩

/-- The reciprocal degree is one over the floored degree. -/
theorem recipDegree_apply (d : IVec S1600000 32) (j : S100000.Idx) :
    recipDegree (F := Ideal) d j = Ideal.div (Ideal.ofBits .f32 0x3F800000#32) (flooredDegree (F := Ideal) d j) := by
  unfold recipDegree
  rw [host_divf_apply, splat_apply]

/-- THE MEAN, TWO WAYS: the neighbour sum times the reciprocal of the floored degree is the neighbour sum divided by the
    floored degree, at every node and feature and whatever the sum is. -/
theorem mean_eq (h : FVec Ideal S100000x64 .f32) (s d : IVec S1600000 32) : meanByProduct h s d = meanByQuotient h s d := by
  funext i
  obtain ⟨p, q, rfl⟩ : ∃ (p : Fin 100000) (q : Fin 64), i = ix2 p q := ⟨i 0, i 1, eq_ix2 i⟩
  unfold meanByProduct scaledSum meanByQuotient
  generalize neighbourSum h s d = A
  rw [mulf_apply, host_divf_apply, alongFeatures_apply, alongFeatures_apply, recipDegree_apply]
  obtain ⟨D, hD⟩ := flooredDegree_apply d (ix1 p)
  rw [hD]
  exact Cert.SageLaws.mul_recip_f32 _ _

/-- The reference's product of the node array with a weight matrix, at `(p, q)`. -/
theorem dg_nodes_apply (l : FVec Ideal S100000x64 .f32) (r : FVec Ideal S64x64 .f32) (p : Fin 100000) (q : Fin 64) :
    Host.dotGeneral Cert.ReferenceIdeal.dot_S100000x64_S64x64_S100000x64_1_0_0_1_n_n none l r (ix2 p q) = ∑ k : Fin 64, l (ix2 p k) * r (ix2 k q) :=
  PlainDot.dotGeneral_apply 100000 64 64 none l r (ix2 p q)

/-- The reference's hidden product of the head, at `(p, k)`. -/
theorem dg_hidden_apply (l : FVec Ideal S512x64 .f32) (r : FVec Ideal S64x64 .f32) (p : Fin 512) (k : Fin 64) :
    Host.dotGeneral Cert.ReferenceIdeal.dot_S512x64_S64x64_S512x64_1_0_0_1_n_n none l r (ix2 p k) = ∑ j : Fin 64, l (ix2 p j) * r (ix2 j k) :=
  PlainDot.dotGeneral_apply 512 64 64 none l r (ix2 p k)

/-- The reference's output product of the head, at `(p, q)`. -/
theorem dg_out_apply (l : FVec Ideal S512x64 .f32) (r : FVec Ideal S64x5 .f32) (p : Fin 512) (q : Fin 5) :
    Host.dotGeneral Cert.ReferenceIdeal.dot_S512x64_S64x5_S512x5_1_0_0_1_n_n none l r (ix2 p q) = ∑ k : Fin 64, l (ix2 p k) * r (ix2 k q) :=
  PlainDot.dotGeneral_apply 512 64 5 none l r (ix2 p q)

/-- A bias of `n` entries broadcast down `r` rows reads, at `(p, q)`, the bias at `q`. -/
theorem bias_rows_apply {r n : Nat} (h1 : (⟨2, ![1, n]⟩ : Shape).BroadcastsInDim ⟨2, ![r, n]⟩ ![0, 1])
    (h2 : (⟨1, ![n]⟩ : Shape).BroadcastsInDim ⟨2, ![1, n]⟩ ![1]) (b : (⟨1, ![n]⟩ : Shape).Idx → EReal) (p : Fin r) (q : Fin n) :
    broadcastInDim ⟨2, ![r, n]⟩ ![0, 1] h1 (broadcastInDim ⟨2, ![1, n]⟩ ![1] h2 b) (ix2 p q) = b (ix1 q) := by
  refine (broadcastInDim_apply _ h1 _ (ix2 p q) (ix2 (0 : Fin 1) q) (fun a => match a with
    | ⟨0, _⟩ => by show 0 = if (1 : Nat) = 1 then 0 else p.val; rw [if_pos rfl]
    | ⟨1, _⟩ => by
      show q.val = if n = 1 then 0 else q.val
      split
      · have := q.isLt; omega
      · rfl)).trans ?_
  exact broadcastInDim_apply _ h2 b (ix2 (0 : Fin 1) q) (ix1 q) (fun a => match a with
    | ⟨0, _⟩ => by
      show q.val = if n = 1 then 0 else q.val
      split
      · have := q.isLt; omega
      · rfl)

/-- A bias of 64 entries laid out as a row reads, at `(0, q)`, the bias at `q`. -/
theorem asRow_apply (b : FVec Ideal S64 .f32) (q : Fin 64) : asRow b (ix2 (0 : Fin 1) q) = b (ix1 q) :=
  shapeCast_a_1a_apply b shapeCasts_S64_S1x64 0 q

/-- The output bias laid out as a row reads, at `(0, q)`, the bias at `q`. -/
theorem asRowOut_apply (b : FVec Ideal S5 .f32) (q : Fin 5) : asRowOut b (ix2 (0 : Fin 1) q) = b (ix1 q) :=
  shapeCast_a_1a_apply b shapeCasts_S5_S1x5 0 q

/-- A DENSE LAYER, TWO WAYS: the reference's host form is the dense layer of the same operands with the weights
    transposed and the bias as a row; the bias moves past the second product by commutativity of the sum. -/
theorem refDense_eq (a x : FVec Ideal S100000x64 .f32) (wl : FVec Ideal S64x64 .f32) (b : FVec Ideal S64 .f32)
    (wr : FVec Ideal S64x64 .f32) : refDense a x wl b wr = denseArr a x (transposed wl) (asRow b) (transposed wr) := by
  funext i
  obtain ⟨p, q, rfl⟩ : ∃ (p : Fin 100000) (q : Fin 64), i = ix2 p q := ⟨i 0, i 1, eq_ix2 i⟩
  unfold refDense denseArr denseAt
  show max ((Host.dotGeneral Cert.ReferenceIdeal.dot_S100000x64_S64x64_S100000x64_1_0_0_1_n_n none a (transposed wl) (ix2 p q)
        + broadcastInDim S100000x64 ![0, 1] Cert.ReferenceIdeal.Gen.bcast_S1x64_S100000x64_0_1 (broadcastInDim S1x64 ![1] Cert.ReferenceIdeal.Gen.bcast_S64_S1x64_1 b) (ix2 p q))
        + Host.dotGeneral Cert.ReferenceIdeal.dot_S100000x64_S64x64_S100000x64_1_0_0_1_n_n none x (transposed wr) (ix2 p q))
      (broadcastInDim S100000x64 ![] bcast_S_S100000x64 (constant (F := Ideal) S_ .f32 0x00000000#32) (ix2 p q))
    = max ((∑ k : Fin 64, a (ix2 p k) * transposed wl (ix2 k q)) + (∑ k : Fin 64, x (ix2 p k) * transposed wr (ix2 k q))
        + asRow b (ix2 (0 : Fin 1) q)) 0
  rw [dg_nodes_apply, dg_nodes_apply, bias_rows_apply, splat_apply, asRow_apply, Ideal.ofBits_zero_f32, add_right_comm]

/-- THE HEAD, TWO WAYS: the reference's host form is the head of the same operands with the weights transposed and the
    biases as rows. -/
theorem refHead_eq (g : FVec Ideal S512x64 .f32) (wg : FVec Ideal S64x64 .f32) (bg : FVec Ideal S64 .f32)
    (wo : FVec Ideal S5x64 .f32) (bo : FVec Ideal S5 .f32) :
    refHead g wg bg wo bo = headArr g (transposed wg) (asRow bg) (transposedOut wo) (asRowOut bo) := by
  funext i
  obtain ⟨p, q, rfl⟩ : ∃ (p : Fin 512) (q : Fin 5), i = ix2 p q := ⟨i 0, i 1, eq_ix2 i⟩
  unfold refHead headArr headAt
  show Host.dotGeneral Cert.ReferenceIdeal.dot_S512x64_S64x5_S512x5_1_0_0_1_n_n none
        (maximumf (addf (Host.dotGeneral Cert.ReferenceIdeal.dot_S512x64_S64x64_S512x64_1_0_0_1_n_n none g (transposed wg))
            (broadcastInDim S512x64 ![0, 1] Cert.ReferenceIdeal.Gen.bcast_S1x64_S512x64_0_1 (broadcastInDim S1x64 ![1] Cert.ReferenceIdeal.Gen.bcast_S64_S1x64_1 bg)))
          (broadcastInDim S512x64 ![] bcast_S_S512x64 (constant (F := Ideal) S_ .f32 0x00000000#32)))
        (transposedOut wo) (ix2 p q)
      + broadcastInDim S512x5 ![0, 1] Cert.ReferenceIdeal.Gen.bcast_S1x5_S512x5_0_1 (broadcastInDim S1x5 ![1] Cert.ReferenceIdeal.Gen.bcast_S5_S1x5_1 bo) (ix2 p q)
    = (∑ k : Fin 64, max ((∑ j : Fin 64, g (ix2 p j) * transposed wg (ix2 j k)) + asRow bg (ix2 (0 : Fin 1) k)) 0 * transposedOut wo (ix2 k q))
      + asRowOut bo (ix2 (0 : Fin 1) q)
  rw [dg_out_apply, bias_rows_apply, asRowOut_apply]
  refine congrArg (· + bo (ix1 q)) (Finset.sum_congr rfl fun k _ => ?_)
  show max (Host.dotGeneral Cert.ReferenceIdeal.dot_S512x64_S64x64_S512x64_1_0_0_1_n_n none g (transposed wg) (ix2 p k)
        + broadcastInDim S512x64 ![0, 1] Cert.ReferenceIdeal.Gen.bcast_S1x64_S512x64_0_1 (broadcastInDim S1x64 ![1] Cert.ReferenceIdeal.Gen.bcast_S64_S1x64_1 bg) (ix2 p k))
      (broadcastInDim S512x64 ![] bcast_S_S512x64 (constant (F := Ideal) S_ .f32 0x00000000#32) (ix2 p k)) * transposedOut wo (ix2 k q) = _
  rw [dg_hidden_apply, bias_rows_apply, splat_apply, asRow_apply, Ideal.ofBits_zero_f32]

/-- THE TWO PROGRAMS COMPUTE ONE FUNCTION of their arguments, at the ideal values. -/
theorem out_eq (x : FVec Ideal S100000x64 .f32) (w1l : FVec Ideal S64x64 .f32) (b1l : FVec Ideal S64 .f32) (w1r : FVec Ideal S64x64 .f32)
    (w2l : FVec Ideal S64x64 .f32) (b2l : FVec Ideal S64 .f32) (w2r : FVec Ideal S64x64 .f32)
    (wg : FVec Ideal S64x64 .f32) (bg : FVec Ideal S64 .f32) (wo : FVec Ideal S5x64 .f32) (bo : FVec Ideal S5 .f32)
    (ei : IVec S2x1600000 32) (batch : IVec S100000 32) :
    refOut x w1l b1l w1r w2l b2l w2r wg bg wo bo ei batch
      = Cert.KernelIdeal.Chain.kernelOut x w1l b1l w1r w2l b2l w2r wg bg wo bo ei batch := by
  unfold refOut refLayer Cert.KernelIdeal.Chain.kernelOut Cert.KernelIdeal.Chain.layerOut
  simp only [refHead_eq, refDense_eq, mean_eq]

end IdealValues

end Cert.RefValue

end
-- ==== Proof.lean ====
/-
  The certificate of a two-layer neighbour-mean graph network with a pooled head, against its host reference.

  The kernel program runs the two dense layers and the head in three kernel regions and the gathers, scatter-adds and
  graph means on the host between them; the reference runs everything on the host. At the ideal values both end at one
  function of their thirteen arguments:

      out = head( graphMean( layer₂( layer₁(x) ) ) ),   layer(h) = relu( mean_nbrs(h)·Wlᵀ + b + h·Wrᵀ ),
      head(g) = relu( g·Wgᵀ + bg )·Woᵀ + bo.

  Three laws of the extended reals join them: the mean over neighbours as a product with the reciprocal of the floored
  degree is the quotient by it (a number floored at one is never zero); sums may be regrouped; a matrix product is the
  same sum over the contracted coordinates on the matrix unit as on the host. The roundings to bf16 are the identity
  there. None of this uses the finiteness of the inputs, and no gather or scatter-add is opened: the two programs apply
  them to equal operands.

  The three frames: the kernel programs' are the generated launch over their segments; the reference's is its run with
  the result dropped. The idealization rewrote nothing, so the second conjunct from the end is trivial.
-/
import proofs.«102318_j76613626626158_1_alg».proof.Defs
import proofs.«102318_j76613626626158_1_alg».proof.Proof.Gen.Kernel
import proofs.«102318_j76613626626158_1_alg».proof.Proof.Gen.Kernel.Frame
import proofs.«102318_j76613626626158_1_alg».proof.Proof.Gen.KernelIdeal
import proofs.«102318_j76613626626158_1_alg».proof.Proof.Gen.KernelIdeal.Frame
import proofs.«102318_j76613626626158_1_alg».proof.Proof.Gen.ReferenceIdeal
import proofs.«102318_j76613626626158_1_alg».proof.Proof.Gen.ReferenceIdeal.Run
import proofs.«102318_j76613626626158_1_alg».proof.Proof.Gen.Pre_finite_inputs
import proofs.«102318_j76613626626158_1_alg».proof.Proof.KernelRunResult
import proofs.«102318_j76613626626158_1_alg».proof.Proof.KernelValue
import proofs.«102318_j76613626626158_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the one function of the arguments: the kernel program's run read back through its regions
    and stretches, the reference's run, and the three laws. -/
theorem algebraic : Cert.algebraic_KernelIdeal_ReferenceIdeal := by
  intro m ρ m' ρ' _ hagree
  refine ⟨fun c => Cert.KernelIdeal.Chain.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans (Cert.KernelIdeal.Chain.result m ρ c), (h c).2⟩)
      (Cert.KernelIdeal.RunResult.run_result (F := Ideal) m ρ)
  · refine (θ_run Cert.ReferenceIdeal.defs _ _).mono (fun r h c => ⟨(h c).1.trans ?_, (h c).2⟩) (Cert.ReferenceIdeal.Value.run (F := Ideal) m' ρ')
    rw [Cert.RefValue.ref_result, Cert.RefValue.out_eq]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
